-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S64x32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x64 .f32) (main_arg4 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S2000x128 : Shape := ⟨2, ![2000, 128]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S10000x32 : Shape := ⟨2, ![10000, 32]⟩
abbrev S400x32 : Shape := ⟨2, ![400, 32]⟩
abbrev S32x10000 : Shape := ⟨2, ![32, 10000]⟩

abbrev nBuf : Space → Nat
  | .hbm => 12
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64x32, .f32⟩
  | .hbm, ⟨5, _⟩ => ⟨S10000x128, .bf16⟩
  | .hbm, ⟨6, _⟩ => ⟨S10000x10000, .bf16⟩
  | .hbm, ⟨7, _⟩ => ⟨S10000x64, .bf16⟩
  | .hbm, ⟨8, _⟩ => ⟨S10000x32, .bf16⟩
  | .hbm, ⟨9, _⟩ => ⟨S10000x32, .f32⟩
  | .hbm, ⟨10, _⟩ => ⟨S32x10000, .f32⟩
  | .hbm, ⟨11, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S128x64, .f32⟩
  | .local _ .vmem, ⟨9, _⟩ => ⟨S400x10000, .bf16⟩
  | .local _ .vmem, ⟨10, _⟩ => ⟨S400x10000, .bf16⟩
  | .local _ .vmem, ⟨11, _⟩ => ⟨S400x64, .bf16⟩
  | .local _ .vmem, ⟨12, _⟩ => ⟨S400x64, .bf16⟩
  | .local _ .vmem, ⟨13, _⟩ => ⟨S400x10000, .bf16⟩
  | .local _ .vmem, ⟨14, _⟩ => ⟨S400x10000, .bf16⟩
  | .local _ .vmem, ⟨15, _⟩ => ⟨S10000x64, .bf16⟩
  | .local _ .vmem, ⟨16, _⟩ => ⟨S64x32, .f32⟩
  | .local _ .vmem, ⟨17, _⟩ => ⟨S400x32, .bf16⟩
  | .local _ .vmem, ⟨18, _⟩ => ⟨S400x32, .bf16⟩
  | .local _ .vmem, ⟨19, _⟩ => ⟨S400x10000, .bf16⟩
  | .local _ .vmem, ⟨20, _⟩ => ⟨S400x10000, .bf16⟩
  | .local _ .vmem, ⟨21, _⟩ => ⟨S10000x32, .bf16⟩
  | .local _ .vmem, ⟨22, _⟩ => ⟨S400x32, .f32⟩
  | .local _ .vmem, ⟨23, _⟩ => ⟨S400x32, .f32⟩
  | .local _ .vmem, ⟨24, _⟩ => ⟨S400x32, .f32⟩
  | .local _ .vmem, ⟨25, _⟩ => ⟨S400x32, .f32⟩
  | .local _ .vmem, ⟨26, _⟩ => ⟨S32x10000, .f32⟩
  | .local _ .vmem, ⟨27, _⟩ => ⟨S400x10000, .f32⟩
  | .local _ .vmem, ⟨28, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  transposes_S10000x32_S32x10000_1_0 : S10000x32.Transposes [1, 0] S32x10000
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  dot_S400x32_S32x10000_S400x10000_1_0_0_1_n_n_wf : DotDims.WF S400x32 S32x10000 S400x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .bf16 = 32 ∨ (Rect.block (s := S10000x32) S400x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .f32 = 32 ∨ (Rect.block (s := S10000x32) S400x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x32.size a ≤ S10000x32.size a
  hwx4_0 : ∀ i : grid4.Coords, EltTy.bits .f32 = 32 ∨ (Rect.block (s := S10000x32) S400x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x10000.size a ≤ S32x10000.size a
  hwx4_1 : ∀ i : grid4.Coords, EltTy.bits .f32 = 32 ∨ (Rect.block (s := S32x10000) S32x10000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S400x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S32x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S10000x64 : Shape := ⟨2, ![10000, 64]⟩
abbrev S10000x32 : Shape := ⟨2, ![10000, 32]⟩
abbrev S32x10000 : Shape := ⟨2, ![32, 10000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64x32, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x32, .f32⟩
  | .hbm, ⟨12, _⟩ => ⟨S10000x32, .f32⟩
  | .hbm, ⟨13, _⟩ => ⟨S32x10000, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S10000x32_S32x10000_1_0 : S10000x32.Transposes [1, 0] S32x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.MatProduct.lean ====
/-
  Row-blocked matrix products on the extended reals.

  `mm A B` is the product of an `[M, K]` array by a `[K, N]` array: at entry `(r, s)` the sum over `k` of
  `A[r, k] · B[k, s]`. Three facts about it are all the layers of this certificate need.
  * Both machine products are it: the matrix unit's product accumulated into a zero block, and the host's
    `dot_general`, with the dimension numbers of a plain product.
  * It is ROW-LOCAL: entry `(r, s)` reads row `r` of `A` only. So a block of rows of `A` multiplied by the whole of
    `B` is the same block of rows of `mm A B`, and an activation applied entry by entry, or a second product on the
    right, keeps that.
  * The logistic function is `1 / (1 + e^(-x))` on every extended real, which is how the host spells it.
-/
import Idealize.ShloMosaic.PureOps.Ideal.Laws
import Idealize.ShloMosaic.Lib.ValueIdx
import Idealize.ShloMosaic.Lib.ValueLayout
import Idealize.ShloMosaic.Lib.IdealHost
import proofs.«141929_g4002909520352_cont_8to1_b_696_5_alg».proof.Proof.LibMatmulPlain

noncomputable section

open scoped BigOperators
open Idealize.ShloMosaic Idealize.ShloMosaic.ValueIdx

namespace Cert.Gae

variable {M K N : Nat}

/-- The product of an `[M, K]` array by a `[K, N]` array, entry by entry. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal)
    (r : Fin M) (s : Fin N) : mm A B (ix2 r s) = ∑ k : Fin K, A (ix2 r k) * B (ix2 k s) := rfl

/-- Row locality: if row `p` of `A'` is row `r` of `A`, then row `p` of `A' · B` is row `r` of `A · B`. -/
theorem mm_row {M' : Nat} (A' : (⟨2, ![M', K]⟩ : Shape).Idx → EReal) (A : (⟨2, ![M, K]⟩ : Shape).Idx → EReal)
    (B : (⟨2, ![K, N]⟩ : Shape).Idx → EReal) (p : Fin M') (r : Fin M)
    (h : ∀ k : Fin K, A' (ix2 p k) = A (ix2 r k)) (s : Fin N) :
    mm A' B (ix2 p s) = mm A B (ix2 r s) := by
  rw [mm_apply, mm_apply]
  exact Finset.sum_congr rfl fun k _ => by rw [h k]

/-- The matrix unit's product into a zero accumulator is `mm`. -/
theorem matmul_eq_mm {φ₁ φ₂ : FTy} (prec : Option ContractPrecision)
    (A : FVec Ideal ⟨2, ![M, K]⟩ φ₁) (B : FVec Ideal ⟨2, ![K, N]⟩ φ₂) :
    matmul (DotDims.plain M K N) prec A B (constant ⟨2, ![M, N]⟩ .f32 0x00000000#32) = mm A B := by
  funext i
  rw [eq_ix2 i]
  exact Cert.MatmulPlain.matmul_zero_apply prec A B _ _

/-- The host's `dot_general` is `mm`. -/
theorem dotGeneral_eq_mm {φ₁ φ₂ : FTy} (prec : Option ContractPrecision)
    (A : FVec Ideal ⟨2, ![M, K]⟩ φ₁) (B : FVec Ideal ⟨2, ![K, N]⟩ φ₂) :
    Host.dotGeneral (DotDims.plain M K N) prec A B = mm A B := by
  funext i
  rw [eq_ix2 i]
  exact Cert.MatmulPlain.dotGeneral_apply prec _ A B _ _

/-- The hyperbolic tangent of every entry. -/
def tanhAll {s : Shape} (x : s.Idx → EReal) : s.Idx → EReal := fun i => Ideal.tanh (x i)

/-- The logistic function of every entry. -/
def logisticAll {s : Shape} (x : s.Idx → EReal) : s.Idx → EReal := fun i => Ideal.logistic (x i)

theorem tanh_eq_tanhAll {s : Shape} {φ : FTy} (x : FVec Ideal s φ) : tanh x = tanhAll x := rfl
theorem hostTanh_eq_tanhAll {s : Shape} {φ : FTy} (x : FVec Ideal s φ) : Host.tanh x = tanhAll x := rfl
theorem logistic_eq_logisticAll {s : Shape} {φ : FTy} (x : FVec Ideal s φ) : logistic x = logisticAll x := rfl

/-- The transpose of an `[M, N]` array. -/
def tr (x : (⟨2, ![M, N]⟩ : Shape).Idx → EReal) : (⟨2, ![N, M]⟩ : Shape).Idx → EReal :=
  fun j => x (ix2 (j 1) (j 0))

theorem transpose_eq_tr (x : (⟨2, ![M, N]⟩ : Shape).Idx → EReal)
    (h : (⟨2, ![M, N]⟩ : Shape).Transposes [1, 0] ⟨2, ![N, M]⟩) :
    transpose ⟨2, ![N, M]⟩ [1, 0] x h = tr x := by
  funext j
  rw [eq_ix2 j]
  exact transpose_ix2_apply x h _ _

/-- The host's spelling of the logistic function, `1 / (1 + e^(-x))` with both ones broadcast from the literal
    `1.0`, is the logistic function on every extended real. -/
theorem hostSigmoid_eq_logisticAll {T : Shape} (h : (⟨0, ![]⟩ : Shape).BroadcastsInDim T ![]) (g : FVec Ideal T .f32) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf g)))
      = logisticAll g := by
  funext j
  simp only [Host.divf, addf, Host.exp, Host.negf, logisticAll, broadcastInDim_scalar_apply, constant,
    Ideal.ofBits_def, Ideal.ofBits_one_f32, Ideal.hostDivf_def, Ideal.addf_def, Ideal.hostUnary_exp_def,
    Ideal.hostNegf_def, Ideal.negf_def]
  rfl

end Cert.Gae

end
-- ==== Proof.Encoder.lean ====
/-
  The graph auto-encoder's two results as functions of its five inputs, on the extended reals.

  With `A` the adjacency matrix and `X` the node features, three layers
  `S₁ = tanh (X · W₁)`, `S₂ = tanh ((A · S₁) · W₂)`, `Z₃ = (A · S₂) · W₃` give the embedding `Z = A · Z₃`,
  and the reconstructed adjacency is the logistic function of the gram matrix `Z · Zᵀ`.
-/
import proofs.«141929_g4002909520352_cont_8to1_b_696_5_alg».proof.Proof.MatProduct

noncomputable section

open Idealize.ShloMosaic Idealize.ShloMosaic.ValueIdx

namespace Cert.Gae

variable {n d e1 e2 nz : Nat}

/-- The first layer's activations `tanh (X · W₁)`. -/
def layer1 (X : (⟨2, ![n, d]⟩ : Shape).Idx → EReal) (W1 : (⟨2, ![d, e1]⟩ : Shape).Idx → EReal) :
    (⟨2, ![n, e1]⟩ : Shape).Idx → EReal :=
  tanhAll (mm X W1)

/-- The second layer's activations `tanh ((A · S₁) · W₂)`. -/
def layer2 (A : (⟨2, ![n, n]⟩ : Shape).Idx → EReal) (S1 : (⟨2, ![n, e1]⟩ : Shape).Idx → EReal)
    (W2 : (⟨2, ![e1, e2]⟩ : Shape).Idx → EReal) : (⟨2, ![n, e2]⟩ : Shape).Idx → EReal :=
  tanhAll (mm (mm A S1) W2)

/-- The third layer before its propagation, `(A · S₂) · W₃`. -/
def layer3 (A : (⟨2, ![n, n]⟩ : Shape).Idx → EReal) (S2 : (⟨2, ![n, e2]⟩ : Shape).Idx → EReal)
    (W3 : (⟨2, ![e2, nz]⟩ : Shape).Idx → EReal) : (⟨2, ![n, nz]⟩ : Shape).Idx → EReal :=
  mm (mm A S2) W3

/-- The embedding `Z = A · ((A · tanh ((A · tanh (X · W₁)) · W₂)) · W₃)`. -/
def embedding (X : (⟨2, ![n, d]⟩ : Shape).Idx → EReal) (A : (⟨2, ![n, n]⟩ : Shape).Idx → EReal)
    (W1 : (⟨2, ![d, e1]⟩ : Shape).Idx → EReal) (W2 : (⟨2, ![e1, e2]⟩ : Shape).Idx → EReal)
    (W3 : (⟨2, ![e2, nz]⟩ : Shape).Idx → EReal) : (⟨2, ![n, nz]⟩ : Shape).Idx → EReal :=
  mm A (layer3 A (layer2 A (layer1 X W1) W2) W3)

/-- The reconstructed adjacency `logistic (Z · Zᵀ)`. -/
def reconstruction (Z : (⟨2, ![n, nz]⟩ : Shape).Idx → EReal) : (⟨2, ![n, n]⟩ : Shape).Idx → EReal :=
  logisticAll (mm Z (tr Z))

end Cert.Gae

end
-- ==== Proof.FeatureLayer.lean ====
/-
  The first layer: `S₁ = tanh (X · W₁)`, five blocks of two thousand rows.

  At grid point `t` the body multiplies rows `2000 t … 2000 t + 1999` of the features by the whole of `W₁`, takes
  the hyperbolic tangent of every entry and stores the block; the block written back is the same rows of the
  output. A product's row reads only that row of its left operand, and the activation is entry by entry, so the
  output array ends as `layer1 X W₁` of the arrays the region finds.
-/
import proofs.«141929_g4002909520352_cont_8to1_b_696_5_alg».proof.Proof.Gen.KernelIdeal.Frame
import proofs.«141929_g4002909520352_cont_8to1_b_696_5_alg».proof.Proof.Encoder
import Idealize.ShloMosaic.Lib.Pipeline.Value

set_option maxRecDepth 16384

noncomputable section

namespace Cert.KernelIdeal.FeatureLayer

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (V : (c : Dev nD) → (b : Ref sig .tc) → Buf (Elt Ideal) ((c : Thread nD τ).loc b))

theorem zero2 : (![0, 0] : Fin 2 → Nat) = fun _ => 0 := funext fun a => by fin_cases a <;> rfl

/-- The features and the first weight matrix as the region finds them, at their literal types. -/
abbrev xArr (c : Dev nD) : (⟨2, ![10000, 128]⟩ : Shape).Idx → EReal := V c main_arg0
abbrev wArr (c : Dev nD) : (⟨2, ![128, 128]⟩ : Shape).Idx → EReal := V c main_arg2

/-- The body's stored value: the hyperbolic tangent of the product of its two loaded blocks. -/
theorem payload (x0 : Vec Ideal S2000x128 .f32) (x1 : Vec Ideal S128x128 .f32) :
    k0_pay1 (F := Ideal) x0 x1 = tanhAll (mm x0 x1) := by
  unfold k0_pay1
  exact congrArg tanhAll (matmul_eq_mm (some .fp32) x0 x1)

/-- The index maps over the grid: the feature block and the output block are block-row `t`; `W₁` is whole. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `layer1` of the arrays the region finds. -/
theorem flushed (c : Dev nD) (t : Fin cfg0.N) :
    (dat0 V c).flushed 2 t = ((cfg0.win 2).blk t).view.read (Elt Ideal) (layer1 (xArr V c) (wArr V c)) := by
  show (cfg0.win 2).cut (grid0.coords t) ((dat0 V c).after 2 t) = _
  rw [after0_2]
  unfold out0_2
  rw [View.canon_unit_zero zero2]
  simp only [View.ld_unit_zero (S := S2000x128) zero2, View.ld_unit_zero (S := S128x128) zero2]
  rw [payload]
  funext j
  obtain ⟨e00, e01, e10, e11, e20, e21⟩ := blockIdx t
  obtain ⟨p, q, rfl⟩ : ∃ (p : Fin 2000) (q : Fin 128), j = ix2 p q := ⟨j 0, j 1, eq_ix2 j⟩
  show Ideal.tanh (∑ k : Fin 128, xArr V c (((cfg0.win 0).blk t).view.emb (ix2 p k))
        * wArr V c (((cfg0.win 1).blk t).view.emb (ix2 k q)))
      = Ideal.tanh (∑ k : Fin 128, xArr V c (ix2 ((((cfg0.win 2).blk t).view.emb (ix2 p q)) 0) k)
        * wArr V c (ix2 k ((((cfg0.win 2).blk t).view.emb (ix2 p q)) 1)))
  refine congrArg Ideal.tanh (Finset.sum_congr rfl fun k _ => ?_)
  have hA : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hB : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) (congrArg (xArr V c) hA) (congrArg (wArr V c) hB)

/-- An index of the output array lies in point `t`'s block iff each coordinate lies in the block's range. -/
theorem mem_blk (t : Fin cfg0.N) (i : S10000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every index of the output array is written back: row `r` by point `r / 2000`. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have ht : (i 0).val / 2000 < cfg0.N := by
    show (i 0).val / 2000 < grid0.N
    rw [N_0]; omega
  have e20 : win0_2.index ⟨(i 0).val / 2000, ht⟩ (0 : Fin 2) = (i 0).val / 2000 := (blockIdx ⟨(i 0).val / 2000, ht⟩).2.2.2.2.1
  have e21 : win0_2.index ⟨(i 0).val / 2000, ht⟩ (1 : Fin 2) = 0 := (blockIdx ⟨(i 0).val / 2000, ht⟩).2.2.2.2.2
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e20]; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e21]; omega

/-- THE OUTPUT ARRAY after the region: `layer1` of the two arrays the region finds. -/
theorem final (c : Dev nD) : (dat0 V c).arrAt 2 cfg0.N = layer1 (xArr V c) (wArr V c) :=
  (dat0 V c).arrAt_eq_of_cover 2 (layer1 (xArr V c) (wArr V c)) (fun t _ => flushed V c t) cover

end Cert.KernelIdeal.FeatureLayer

end
-- ==== Proof.Pass1.lean ====
/-
  The first adjacency pass, twenty-five blocks of four hundred rows, with two outputs.

  At grid point `t` the body loads rows `400 t … 400 t + 399` of the adjacency matrix, stores them again in the
  narrower format (on the extended reals a change of format is the identity, so this output ends as the adjacency
  matrix itself), multiplies them by the whole of `S₁`, then by the whole of `W₂`, takes the hyperbolic tangent of
  every entry and stores that block: the second output ends as `layer2` of the arrays the region finds.
-/
import proofs.«141929_g4002909520352_cont_8to1_b_696_5_alg».proof.Proof.Gen.KernelIdeal.Frame
import proofs.«141929_g4002909520352_cont_8to1_b_696_5_alg».proof.Proof.Encoder
import Idealize.ShloMosaic.Lib.Pipeline.Value

set_option maxRecDepth 16384

noncomputable section

namespace Cert.KernelIdeal.Pass1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (V : (c : Dev nD) → (b : Ref sig .tc) → Buf (Elt Ideal) ((c : Thread nD τ).loc b))

theorem zero2 : (![0, 0] : Fin 2 → Nat) = fun _ => 0 := funext fun a => by fin_cases a <;> rfl

/-- The adjacency matrix, the first layer's activations and the second weight matrix as the region finds them. -/
abbrev adjArr (c : Dev nD) : (⟨2, ![10000, 10000]⟩ : Shape).Idx → EReal := V c main_arg1
abbrev sArr (c : Dev nD) : (⟨2, ![10000, 128]⟩ : Shape).Idx → EReal := V c main_v0
abbrev wArr (c : Dev nD) : (⟨2, ![128, 64]⟩ : Shape).Idx → EReal := V c main_arg3

/-- The three input blocks at a point, at their literal types. -/
abbrev blkA (c : Dev nD) (t : Fin cfg1.N) : (⟨2, ![400, 10000]⟩ : Shape).Idx → EReal := iblk1 V c 0 t
abbrev blkS (c : Dev nD) (t : Fin cfg1.N) : (⟨2, ![10000, 128]⟩ : Shape).Idx → EReal := iblk1 V c 1 t
abbrev blkW (c : Dev nD) (t : Fin cfg1.N) : (⟨2, ![128, 64]⟩ : Shape).Idx → EReal := iblk1 V c 2 t

/-- The first stored value is the loaded adjacency block itself. -/
theorem payloadCopy (x0 : Vec Ideal S400x10000 .f32) : k1_pay1 (F := Ideal) x0 = x0 := rfl

/-- The second stored value: the hyperbolic tangent of (adjacency block · second block) · third block. -/
theorem payload (x0 : Vec Ideal S400x10000 .f32) (x1 : Vec Ideal S10000x128 .bf16) (x2 : Vec Ideal S128x64 .f32) :
    k1_pay2 (F := Ideal) x0 x1 x2 = tanhAll (mm (mm x0 x1) x2) := by
  unfold k1_pay2
  simp only [shapeCast_self]
  exact congrArg tanhAll
    ((matmul_eq_mm (some .fp32) _ x2).trans (congrArg (fun a => mm a x2) (matmul_eq_mm none x0 x1)))

/-- The index maps over the grid: the adjacency block and both output blocks are block-row `t`; the others whole. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The second window's block is the whole of `S₁`. -/
theorem blkS_eq (c : Dev nD) (t : Fin cfg1.N) : blkS V c t = sArr V c := by
  funext y
  obtain ⟨-, -, e10, e11, -, -, -, -, -, -⟩ := blockIdx t
  show sArr V c (((cfg1.win 1).blk t).view.emb y) = sArr V c y
  refine congrArg (sArr V c) ?_
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The third window's block is the whole of `W₂`. -/
theorem blkW_eq (c : Dev nD) (t : Fin cfg1.N) : blkW V c t = wArr V c := by
  funext y
  obtain ⟨-, -, -, -, e20, e21, -, -, -, -⟩ := blockIdx t
  show wArr V c (((cfg1.win 2).blk t).view.emb y) = wArr V c y
  refine congrArg (wArr V c) ?_
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- Row `p` of the adjacency block at point `t` is row `400 t + p` of the adjacency matrix. -/
theorem blkA_row (c : Dev nD) (t : Fin cfg1.N) (p : Fin 400) (r : Fin 10000) (hr : r.val = t.val * 400 + p.val)
    (k : Fin 10000) : blkA V c t (ix2 p k) = adjArr V c (ix2 r k) := by
  obtain ⟨e00, e01, -, -, -, -, -, -, -, -⟩ := blockIdx t
  show adjArr V c (((cfg1.win 0).blk t).view.emb (ix2 p k)) = adjArr V c (ix2 r k)
  refine congrArg (adjArr V c) ?_
  funext a; apply Fin.ext
  match a with
  | ⟨0, _⟩ => show win1_0.index t (0 : Fin 2) * 400 + 1 * p.val = r.val; omega
  | ⟨1, _⟩ => show win1_0.index t (1 : Fin 2) * 10000 + 1 * k.val = k.val; omega

/-- Entry `(p, q)` of the second output's block at point `t` is entry `(400 t + p, q)` of that output array. -/
theorem emb_out (t : Fin cfg1.N) (p : Fin 400) (q : Fin 64) (r : Fin 10000) (hr : r.val = t.val * 400 + p.val) :
    ((cfg1.win 4).blk t).view.emb (ix2 p q) = ix2 r q := by
  obtain ⟨-, -, -, -, -, -, -, -, e40, e41⟩ := blockIdx t
  funext a; apply Fin.ext
  match a with
  | ⟨0, _⟩ => show win1_4.index t (0 : Fin 2) * 400 + 1 * p.val = r.val; omega
  | ⟨1, _⟩ => show win1_4.index t (1 : Fin 2) * 64 + 1 * q.val = q.val; omega

/-! ## The re-emitted adjacency (window 3) -/

/-- What point `t` writes back to the first output is block `t` of the adjacency matrix. -/
theorem flushedCopy (c : Dev nD) (t : Fin cfg1.N) :
    (dat1 V c).flushed 3 t = ((cfg1.win 3).blk t).view.read (Elt Ideal) (adjArr V c) := by
  show (cfg1.win 3).cut (grid1.coords t) ((dat1 V c).after 3 t) = _
  rw [after1_3]
  unfold out1_3
  rw [View.canon_unit_zero zero2]
  simp only [View.ld_unit_zero (S := S400x10000) zero2]
  rw [payloadCopy]
  funext j
  obtain ⟨e00, e01, -, -, -, -, e30, e31, -, -⟩ := blockIdx t
  obtain ⟨p, q, rfl⟩ : ∃ (p : Fin 400) (q : Fin 10000), j = ix2 p q := ⟨j 0, j 1, eq_ix2 j⟩
  show adjArr V c (((cfg1.win 0).blk t).view.emb (ix2 p q)) = adjArr V c (((cfg1.win 3).blk t).view.emb (ix2 p q))
  refine congrArg (adjArr V c) ?_
  funext a; apply Fin.ext
  match a with
  | ⟨0, _⟩ => show win1_0.index t (0 : Fin 2) * 400 + 1 * p.val = win1_3.index t (0 : Fin 2) * 400 + 1 * p.val; omega
  | ⟨1, _⟩ => show win1_0.index t (1 : Fin 2) * 10000 + 1 * q.val = win1_3.index t (1 : Fin 2) * 10000 + 1 * q.val; omega

theorem mem_blkCopy (t : Fin cfg1.N) (i : S10000x10000.Idx) :
    i ∈ ((cfg1.win 3).blk t).view.set ↔ ∀ a : Fin 2, win1_3.index t a * S400x10000.size a ≤ (i a).val
      ∧ (i a).val < win1_3.index t a * S400x10000.size a + S400x10000.size a := by
  show i ∈ ((View.whole main_v1_0).slice (win1_3.rect t)).set ↔ _
  rw [View.set_slice_whole, Rect.mem_set_unit]
  exact Iff.rfl

/-- Every index of the first output is written back: row `r` by point `r / 400`. -/
theorem coverCopy (i : S10000x10000.Idx) :
    ∃ t : Fin cfg1.N, (cfg1.win 3).flush t = true ∧ i ∈ ((cfg1.win 3).blk t).view.set := by
  have hi0 : (i 0).val < 10000 := (i 0).isLt
  have hi1 : (i 1).val < 10000 := (i 1).isLt
  have ht : (i 0).val / 400 < cfg1.N := by
    show (i 0).val / 400 < grid1.N
    rw [N_1]; omega
  have e30 : win1_3.index ⟨(i 0).val / 400, ht⟩ (0 : Fin 2) = (i 0).val / 400 := (blockIdx ⟨(i 0).val / 400, ht⟩).2.2.2.2.2.2.1
  have e31 : win1_3.index ⟨(i 0).val / 400, ht⟩ (1 : Fin 2) = 0 := (blockIdx ⟨(i 0).val / 400, ht⟩).2.2.2.2.2.2.2.1
  refine ⟨⟨(i 0).val / 400, ht⟩, flush1_3 _, ?_⟩
  rw [mem_blkCopy]
  intro a
  match a with
  | ⟨0, _⟩ =>
    show win1_3.index ⟨(i 0).val / 400, ht⟩ (0 : Fin 2) * 400 ≤ (i 0).val
      ∧ (i 0).val < win1_3.index ⟨(i 0).val / 400, ht⟩ (0 : Fin 2) * 400 + 400
    rw [e30]; omega
  | ⟨1, _⟩ =>
    show win1_3.index ⟨(i 0).val / 400, ht⟩ (1 : Fin 2) * 10000 ≤ (i 1).val
      ∧ (i 1).val < win1_3.index ⟨(i 0).val / 400, ht⟩ (1 : Fin 2) * 10000 + 10000
    rw [e31]; omega

/-- THE FIRST OUTPUT after the region: the adjacency matrix the region finds. -/
theorem finalCopy (c : Dev nD) : (dat1 V c).arrAt 3 cfg1.N = adjArr V c :=
  (dat1 V c).arrAt_eq_of_cover 3 (adjArr V c) (fun t _ => flushedCopy V c t) coverCopy

/-! ## The second layer's activations (window 4) -/

/-- What point `t` writes back to the second output is block `t` of `layer2` of the arrays the region finds. -/
theorem flushed (c : Dev nD) (t : Fin cfg1.N) :
    (dat1 V c).flushed 4 t
      = ((cfg1.win 4).blk t).view.read (Elt Ideal) (layer2 (adjArr V c) (sArr V c) (wArr V c)) := by
  show (cfg1.win 4).cut (grid1.coords t) ((dat1 V c).after 4 t) = _
  rw [after1_4]
  unfold out1_4
  rw [View.canon_unit_zero zero2]
  simp only [View.ld_unit_zero (S := S400x10000) zero2, View.ld_unit_zero (S := S10000x128) zero2,
    View.ld_unit_zero (S := S128x64) zero2]
  rw [payload]
  funext j
  obtain ⟨p, q, rfl⟩ : ∃ (p : Fin 400) (q : Fin 64), j = ix2 p q := ⟨j 0, j 1, eq_ix2 j⟩
  have ht : t.val < 25 := lt_of_lt_of_eq t.isLt N_1
  have hr : t.val * 400 + p.val < 10000 := by have := p.isLt; omega
  show Ideal.tanh (mm (mm (blkA V c t) (blkS V c t)) (blkW V c t) (ix2 p q))
    = Ideal.tanh (mm (mm (adjArr V c) (sArr V c)) (wArr V c) (((cfg1.win 4).blk t).view.emb (ix2 p q)))
  rw [emb_out t p q ⟨t.val * 400 + p.val, hr⟩ rfl, blkS_eq, blkW_eq]
  exact congrArg Ideal.tanh
    (mm_row _ _ _ p _ (fun j => mm_row _ _ _ p _ (blkA_row V c t p ⟨t.val * 400 + p.val, hr⟩ rfl) j) q)

theorem mem_blk (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v1_1).slice (win1_4.rect t)).set ↔ _
  rw [View.set_slice_whole, Rect.mem_set_unit]
  exact Iff.rfl

/-- Every index of the second output is written back: row `r` by point `r / 400`. -/
theorem cover (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have ht : (i 0).val / 400 < cfg1.N := by
    show (i 0).val / 400 < grid1.N
    rw [N_1]; omega
  have e40 : win1_4.index ⟨(i 0).val / 400, ht⟩ (0 : Fin 2) = (i 0).val / 400 := (blockIdx ⟨(i 0).val / 400, ht⟩).2.2.2.2.2.2.2.2.1
  have e41 : win1_4.index ⟨(i 0).val / 400, ht⟩ (1 : Fin 2) = 0 := (blockIdx ⟨(i 0).val / 400, ht⟩).2.2.2.2.2.2.2.2.2
  refine ⟨⟨(i 0).val / 400, ht⟩, flush1_4 _, ?_⟩
  rw [mem_blk]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e40]; omega
  | ⟨1, _⟩ =>
    show win1_4.index ⟨(i 0).val / 400, ht⟩ (1 : Fin 2) * 64 ≤ (i 1).val
      ∧ (i 1).val < win1_4.index ⟨(i 0).val / 400, ht⟩ (1 : Fin 2) * 64 + 64
    rw [e41]; omega

/-- THE SECOND OUTPUT after the region: `layer2` of the three arrays the region finds. -/
theorem final (c : Dev nD) : (dat1 V c).arrAt 4 cfg1.N = layer2 (adjArr V c) (sArr V c) (wArr V c) :=
  (dat1 V c).arrAt_eq_of_cover 4 (layer2 (adjArr V c) (sArr V c) (wArr V c)) (fun t _ => flushed V c t) cover

end Cert.KernelIdeal.Pass1

end
-- ==== Proof.Pass2.lean ====
/-
  The second adjacency pass: `Z₃ = (A · S₂) · W₃`, twenty-five blocks of four hundred rows.

  At grid point `t` the body multiplies rows `400 t … 400 t + 399` of the adjacency copy by the whole of `S₂`, then
  that block by the whole of `W₃`, and stores it; the block written back is the same rows of the output. Row
  locality of a product, used twice, makes the output array `layer3` of the arrays the region finds.
-/
import proofs.«141929_g4002909520352_cont_8to1_b_696_5_alg».proof.Proof.Gen.KernelIdeal.Frame
import proofs.«141929_g4002909520352_cont_8to1_b_696_5_alg».proof.Proof.Encoder
import Idealize.ShloMosaic.Lib.Pipeline.Value

set_option maxRecDepth 16384

noncomputable section

namespace Cert.KernelIdeal.Pass2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (V : (c : Dev nD) → (b : Ref sig .tc) → Buf (Elt Ideal) ((c : Thread nD τ).loc b))

theorem zero2 : (![0, 0] : Fin 2 → Nat) = fun _ => 0 := funext fun a => by fin_cases a <;> rfl

/-- The adjacency copy, the second layer's activations and the third weight matrix as the region finds them. -/
abbrev adjArr (c : Dev nD) : (⟨2, ![10000, 10000]⟩ : Shape).Idx → EReal := V c main_v1_0
abbrev sArr (c : Dev nD) : (⟨2, ![10000, 64]⟩ : Shape).Idx → EReal := V c main_v1_1
abbrev wArr (c : Dev nD) : (⟨2, ![64, 32]⟩ : Shape).Idx → EReal := V c main_arg4

/-- The three input blocks at a point, at their literal types. -/
abbrev blkA (c : Dev nD) (t : Fin cfg2.N) : (⟨2, ![400, 10000]⟩ : Shape).Idx → EReal := iblk2 V c 0 t
abbrev blkS (c : Dev nD) (t : Fin cfg2.N) : (⟨2, ![10000, 64]⟩ : Shape).Idx → EReal := iblk2 V c 1 t
abbrev blkW (c : Dev nD) (t : Fin cfg2.N) : (⟨2, ![64, 32]⟩ : Shape).Idx → EReal := iblk2 V c 2 t

/-- The body's stored value: the loaded adjacency block times the second block, times the third. -/
theorem payload (x0 : Vec Ideal S400x10000 .bf16) (x1 : Vec Ideal S10000x64 .bf16) (x2 : Vec Ideal S64x32 .f32) :
    k2_pay1 (F := Ideal) x0 x1 x2 = mm (mm x0 x1) x2 := by
  unfold k2_pay1
  simp only [shapeCast_self]
  exact (matmul_eq_mm (φ₁ := .f32) (φ₂ := .f32) (some .fp32) _ x2).trans
    (congrArg (fun a => mm a x2) (matmul_eq_mm (φ₁ := .bf16) (φ₂ := .bf16) none x0 x1))

/-- The index maps over the grid: the adjacency block and the output block are block-row `t`; the others whole. -/
theorem blockIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The second window's block is the whole of `S₂`. -/
theorem blkS_eq (c : Dev nD) (t : Fin cfg2.N) : blkS V c t = sArr V c := by
  funext y
  obtain ⟨-, -, e10, e11, -, -, -, -⟩ := blockIdx t
  show sArr V c (((cfg2.win 1).blk t).view.emb y) = sArr V c y
  refine congrArg (sArr V c) ?_
  funext a; apply Fin.ext
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- The third window's block is the whole of `W₃`. -/
theorem blkW_eq (c : Dev nD) (t : Fin cfg2.N) : blkW V c t = wArr V c := by
  funext y
  obtain ⟨-, -, -, -, e20, e21, -, -⟩ := blockIdx t
  show wArr V c (((cfg2.win 2).blk t).view.emb y) = wArr V c y
  refine congrArg (wArr V c) ?_
  funext a; apply Fin.ext
  match a with
  | ⟨0, _⟩ => show win2_2.index t (0 : Fin 2) * 64 + 1 * (y 0).val = (y 0).val; omega
  | ⟨1, _⟩ => show win2_2.index t (1 : Fin 2) * 32 + 1 * (y 1).val = (y 1).val; omega

/-- Row `p` of the adjacency block at point `t` is row `400 t + p` of the adjacency copy. -/
theorem blkA_row (c : Dev nD) (t : Fin cfg2.N) (p : Fin 400) (r : Fin 10000) (hr : r.val = t.val * 400 + p.val)
    (k : Fin 10000) : blkA V c t (ix2 p k) = adjArr V c (ix2 r k) := by
  obtain ⟨e00, e01, -, -, -, -, -, -⟩ := blockIdx t
  show adjArr V c (((cfg2.win 0).blk t).view.emb (ix2 p k)) = adjArr V c (ix2 r k)
  refine congrArg (adjArr V c) ?_
  funext a; apply Fin.ext
  match a with
  | ⟨0, _⟩ => show win2_0.index t (0 : Fin 2) * 400 + 1 * p.val = r.val; omega
  | ⟨1, _⟩ => show win2_0.index t (1 : Fin 2) * 10000 + 1 * k.val = k.val; omega

/-- Entry `(p, q)` of the output block at point `t` is entry `(400 t + p, q)` of the output array. -/
theorem emb_out (t : Fin cfg2.N) (p : Fin 400) (q : Fin 32) (r : Fin 10000) (hr : r.val = t.val * 400 + p.val) :
    ((cfg2.win 3).blk t).view.emb (ix2 p q) = ix2 r q := by
  obtain ⟨-, -, -, -, -, -, e30, e31⟩ := blockIdx t
  funext a; apply Fin.ext
  match a with
  | ⟨0, _⟩ => show win2_3.index t (0 : Fin 2) * 400 + 1 * p.val = r.val; omega
  | ⟨1, _⟩ => show win2_3.index t (1 : Fin 2) * 32 + 1 * q.val = q.val; omega

/-- What point `t` writes back is block `t` of `layer3` of the arrays the region finds. -/
theorem flushed (c : Dev nD) (t : Fin cfg2.N) :
    (dat2 V c).flushed 3 t
      = ((cfg2.win 3).blk t).view.read (Elt Ideal) (layer3 (adjArr V c) (sArr V c) (wArr V c)) := by
  show (cfg2.win 3).cut (grid2.coords t) ((dat2 V c).after 3 t) = _
  rw [after2_3]
  unfold out2_3
  rw [View.canon_unit_zero zero2]
  simp only [View.ld_unit_zero (S := S400x10000) zero2, View.ld_unit_zero (S := S10000x64) zero2,
    View.ld_unit_zero (S := S64x32) zero2]
  rw [payload]
  funext j
  obtain ⟨p, q, rfl⟩ : ∃ (p : Fin 400) (q : Fin 32), j = ix2 p q := ⟨j 0, j 1, eq_ix2 j⟩
  have ht : t.val < 25 := lt_of_lt_of_eq t.isLt N_2
  have hr : t.val * 400 + p.val < 10000 := by have := p.isLt; omega
  show mm (mm (blkA V c t) (blkS V c t)) (blkW V c t) (ix2 p q)
    = mm (mm (adjArr V c) (sArr V c)) (wArr V c) (((cfg2.win 3).blk t).view.emb (ix2 p q))
  rw [emb_out t p q ⟨t.val * 400 + p.val, hr⟩ rfl, blkS_eq, blkW_eq]
  exact mm_row _ _ _ p _ (fun j => mm_row _ _ _ p _ (blkA_row V c t p ⟨t.val * 400 + p.val, hr⟩ rfl) j) q

/-- An index of the output array lies in point `t`'s block iff each coordinate lies in the block's range. -/
theorem mem_blk (t : Fin cfg2.N) (i : S10000x32.Idx) :
    i ∈ ((cfg2.win 3).blk t).view.set ↔ ∀ a : Fin 2, win2_3.index t a * S400x32.size a ≤ (i a).val
      ∧ (i a).val < win2_3.index t a * S400x32.size a + S400x32.size a := by
  show i ∈ ((View.whole main_v2).slice (win2_3.rect t)).set ↔ _
  rw [View.set_slice_whole, Rect.mem_set_unit]
  exact Iff.rfl

/-- Every index of the output array is written back: row `r` by point `r / 400`. -/
theorem cover (i : S10000x32.Idx) :
    ∃ t : Fin cfg2.N, (cfg2.win 3).flush t = true ∧ i ∈ ((cfg2.win 3).blk t).view.set := by
  have hi0 : (i 0).val < 10000 := (i 0).isLt
  have hi1 : (i 1).val < 32 := (i 1).isLt
  have ht : (i 0).val / 400 < cfg2.N := by
    show (i 0).val / 400 < grid2.N
    rw [N_2]; omega
  have e30 : win2_3.index ⟨(i 0).val / 400, ht⟩ (0 : Fin 2) = (i 0).val / 400 := (blockIdx ⟨(i 0).val / 400, ht⟩).2.2.2.2.2.2.1
  have e31 : win2_3.index ⟨(i 0).val / 400, ht⟩ (1 : Fin 2) = 0 := (blockIdx ⟨(i 0).val / 400, ht⟩).2.2.2.2.2.2.2
  refine ⟨⟨(i 0).val / 400, ht⟩, flush2_3 _, ?_⟩
  rw [mem_blk]
  intro a
  match a with
  | ⟨0, _⟩ =>
    show win2_3.index ⟨(i 0).val / 400, ht⟩ (0 : Fin 2) * 400 ≤ (i 0).val
      ∧ (i 0).val < win2_3.index ⟨(i 0).val / 400, ht⟩ (0 : Fin 2) * 400 + 400
    rw [e30]; omega
  | ⟨1, _⟩ =>
    show win2_3.index ⟨(i 0).val / 400, ht⟩ (1 : Fin 2) * 32 ≤ (i 1).val
      ∧ (i 1).val < win2_3.index ⟨(i 0).val / 400, ht⟩ (1 : Fin 2) * 32 + 32
    rw [e31]; omega

/-- THE OUTPUT ARRAY after the region: `layer3` of the three arrays the region finds. -/
theorem final (c : Dev nD) : (dat2 V c).arrAt 3 cfg2.N = layer3 (adjArr V c) (sArr V c) (wArr V c) :=
  (dat2 V c).arrAt_eq_of_cover 3 (layer3 (adjArr V c) (sArr V c) (wArr V c)) (fun t _ => flushed V c t) cover

end Cert.KernelIdeal.Pass2

end
-- ==== Proof.Pass3.lean ====
/-
  The third adjacency pass: `z_igae = adj · z3`, twenty-five blocks of four hundred rows.

  At grid point `t` the body multiplies rows `400 t … 400 t + 399` of the adjacency copy by the whole of `z3` and
  stores the product; the block written back is rows `400 t …` of the output. A product's row reads only that row
  of its left operand, so the output array ends as the one product `mm adjq z3` of the arrays the region finds.
-/
import proofs.«141929_g4002909520352_cont_8to1_b_696_5_alg».proof.Proof.Gen.KernelIdeal.Frame
import proofs.«141929_g4002909520352_cont_8to1_b_696_5_alg».proof.Proof.MatProduct
import Idealize.ShloMosaic.Lib.Pipeline.Value

set_option maxRecDepth 16384

noncomputable section

namespace Cert.KernelIdeal.Pass3

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (V : (c : Dev nD) → (b : Ref sig .tc) → Buf (Elt Ideal) ((c : Thread nD τ).loc b))

/-- The adjacency copy and `z3` as the region finds them, at their literal types. -/
abbrev adjArr (c : Dev nD) : (⟨2, ![10000, 10000]⟩ : Shape).Idx → EReal := V c main_v1_0
abbrev rhsArr (c : Dev nD) : (⟨2, ![10000, 32]⟩ : Shape).Idx → EReal := V c main_v2

theorem zero2 : (![0, 0] : Fin 2 → Nat) = fun _ => 0 := funext fun a => by fin_cases a <;> rfl

/-- The body's stored value is the product of its two loaded blocks. -/
theorem payload (x0 : Vec Ideal S400x10000 .bf16) (x1 : Vec Ideal S10000x32 .bf16) :
    k3_pay1 (F := Ideal) x0 x1 = mm x0 x1 := by
  unfold k3_pay1
  simp only [shapeCast_self]
  exact matmul_eq_mm none x0 x1

/-- The index maps over the grid: the adjacency block and the output block are block-row `t`; `z3` is whole. -/
theorem blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays the region finds. -/
theorem flushed (c : Dev nD) (t : Fin cfg3.N) :
    (dat3 V c).flushed 2 t = ((cfg3.win 2).blk t).view.read (Elt Ideal) (mm (adjArr V c) (rhsArr V c)) := by
  show (cfg3.win 2).cut (grid3.coords t) ((dat3 V c).after 2 t) = _
  rw [after3_2]
  unfold out3_2
  rw [View.canon_unit_zero zero2]
  simp only [View.ld_unit_zero (S := S400x10000) zero2, View.ld_unit_zero (S := S10000x32) zero2]
  rw [payload]
  funext j
  obtain ⟨e00, e01, e10, e11, e20, e21⟩ := blockIdx t
  obtain ⟨p, q, rfl⟩ : ∃ (p : Fin 400) (q : Fin 32), j = ix2 p q := ⟨j 0, j 1, eq_ix2 j⟩
  show (∑ k : Fin 10000, adjArr V c (((cfg3.win 0).blk t).view.emb (ix2 p k))
        * rhsArr V c (((cfg3.win 1).blk t).view.emb (ix2 k q)))
      = ∑ k : Fin 10000, adjArr V c (ix2 ((((cfg3.win 2).blk t).view.emb (ix2 p q)) 0) k)
        * rhsArr V c (ix2 k ((((cfg3.win 2).blk t).view.emb (ix2 p q)) 1))
  refine Finset.sum_congr rfl fun k _ => ?_
  have hA : ((cfg3.win 0).blk t).view.emb (ix2 p k) = ix2 ((((cfg3.win 2).blk t).view.emb (ix2 p q)) 0) k := by
    funext a; apply Fin.ext
    match a with
    | ⟨0, _⟩ => show win3_0.index t (0 : Fin 2) * 400 + 1 * p.val = win3_2.index t (0 : Fin 2) * 400 + 1 * p.val; omega
    | ⟨1, _⟩ => show win3_0.index t (1 : Fin 2) * 10000 + 1 * k.val = k.val; omega
  have hB : ((cfg3.win 1).blk t).view.emb (ix2 k q) = ix2 k ((((cfg3.win 2).blk t).view.emb (ix2 p q)) 1) := by
    funext a; apply Fin.ext
    match a with
    | ⟨0, _⟩ => show win3_1.index t (0 : Fin 2) * 10000 + 1 * k.val = k.val; omega
    | ⟨1, _⟩ => show win3_1.index t (1 : Fin 2) * 32 + 1 * q.val = win3_2.index t (1 : Fin 2) * 32 + 1 * q.val; omega
  exact congrArg₂ (· * ·) (congrArg (adjArr V c) hA) (congrArg (rhsArr V c) hB)

/-- An index of the output array lies in point `t`'s block iff each coordinate lies in the block's range. -/
theorem mem_blk (t : Fin cfg3.N) (i : S10000x32.Idx) :
    i ∈ ((cfg3.win 2).blk t).view.set ↔ ∀ a : Fin 2, win3_2.index t a * S400x32.size a ≤ (i a).val
      ∧ (i a).val < win3_2.index t a * S400x32.size a + S400x32.size a := by
  show i ∈ ((View.whole main_v3).slice (win3_2.rect t)).set ↔ _
  rw [View.set_slice_whole, Rect.mem_set_unit]
  exact Iff.rfl

/-- Every index of the output array is written back: row `r` by point `r / 400`. -/
theorem cover (i : S10000x32.Idx) :
    ∃ t : Fin cfg3.N, (cfg3.win 2).flush t = true ∧ i ∈ ((cfg3.win 2).blk t).view.set := by
  have hi0 : (i 0).val < 10000 := (i 0).isLt
  have hi1 : (i 1).val < 32 := (i 1).isLt
  have ht : (i 0).val / 400 < cfg3.N := by
    show (i 0).val / 400 < grid3.N
    rw [N_3]; omega
  have e20 : win3_2.index ⟨(i 0).val / 400, ht⟩ (0 : Fin 2) = (i 0).val / 400 := (blockIdx ⟨(i 0).val / 400, ht⟩).2.2.2.2.1
  have e21 : win3_2.index ⟨(i 0).val / 400, ht⟩ (1 : Fin 2) = 0 := (blockIdx ⟨(i 0).val / 400, ht⟩).2.2.2.2.2
  refine ⟨⟨(i 0).val / 400, ht⟩, flush3_2 _, ?_⟩
  rw [mem_blk]
  intro a
  match a with
  | ⟨0, _⟩ =>
    show win3_2.index ⟨(i 0).val / 400, ht⟩ (0 : Fin 2) * 400 ≤ (i 0).val
      ∧ (i 0).val < win3_2.index ⟨(i 0).val / 400, ht⟩ (0 : Fin 2) * 400 + 400
    rw [e20]; omega
  | ⟨1, _⟩ =>
    show win3_2.index ⟨(i 0).val / 400, ht⟩ (1 : Fin 2) * 32 ≤ (i 1).val
      ∧ (i 1).val < win3_2.index ⟨(i 0).val / 400, ht⟩ (1 : Fin 2) * 32 + 32
    rw [e21]; omega

/-- THE OUTPUT ARRAY after the region: the product of the two arrays the region finds. -/
theorem final (c : Dev nD) : (dat3 V c).arrAt 2 cfg3.N = mm (adjArr V c) (rhsArr V c) :=
  (dat3 V c).arrAt_eq_of_cover 2 (mm (adjArr V c) (rhsArr V c)) (fun t _ => flushed V c t) cover

end Cert.KernelIdeal.Pass3

end
-- ==== Proof.Gram.lean ====
/-
  The reconstruction: `logistic (Z · Zᵀ)`, twenty-five blocks of four hundred rows.

  At grid point `t` the body multiplies rows `400 t … 400 t + 399` of the embedding by the whole of its transpose,
  takes the logistic function of every entry and stores the block; the block written back is the same rows of the
  output. The output array ends as the logistic function of the one product of the arrays the region finds.
-/
import proofs.«141929_g4002909520352_cont_8to1_b_696_5_alg».proof.Proof.Gen.KernelIdeal.Frame
import proofs.«141929_g4002909520352_cont_8to1_b_696_5_alg».proof.Proof.Encoder
import Idealize.ShloMosaic.Lib.Pipeline.Value

set_option maxRecDepth 16384

noncomputable section

namespace Cert.KernelIdeal.Gram

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (V : (c : Dev nD) → (b : Ref sig .tc) → Buf (Elt Ideal) ((c : Thread nD τ).loc b))

theorem zero2 : (![0, 0] : Fin 2 → Nat) = fun _ => 0 := funext fun a => by fin_cases a <;> rfl

/-- The embedding and the transposed operand as the region finds them, at their literal types. -/
abbrev zArr (c : Dev nD) : (⟨2, ![10000, 32]⟩ : Shape).Idx → EReal := V c main_v3
abbrev ztArr (c : Dev nD) : (⟨2, ![32, 10000]⟩ : Shape).Idx → EReal := V c main_v4

/-- The body's stored value: the logistic function of the product of its two loaded blocks. -/
theorem payload (x0 : Vec Ideal S400x32 .f32) (x1 : Vec Ideal S32x10000 .f32) :
    k4_pay1 (F := Ideal) x0 x1 = logisticAll (mm x0 x1) := by
  unfold k4_pay1
  simp only [shapeCast_self]
  exact congrArg logisticAll (matmul_eq_mm (some .fp32) x0 x1)

/-- The index maps over the grid: the embedding's block and the output block are block-row `t`; the transposed
    operand is whole. -/
theorem blockIdx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the logistic function of the product of the arrays the region finds. -/
theorem flushed (c : Dev nD) (t : Fin cfg4.N) :
    (dat4 V c).flushed 2 t = ((cfg4.win 2).blk t).view.read (Elt Ideal) (logisticAll (mm (zArr V c) (ztArr V c))) := by
  show (cfg4.win 2).cut (grid4.coords t) ((dat4 V c).after 2 t) = _
  rw [after4_2]
  unfold out4_2
  rw [View.canon_unit_zero zero2]
  simp only [View.ld_unit_zero (S := S400x32) zero2, View.ld_unit_zero (S := S32x10000) zero2]
  rw [payload]
  funext j
  obtain ⟨e00, e01, e10, e11, e20, e21⟩ := blockIdx t
  obtain ⟨p, q, rfl⟩ : ∃ (p : Fin 400) (q : Fin 10000), j = ix2 p q := ⟨j 0, j 1, eq_ix2 j⟩
  show Ideal.logistic (∑ k : Fin 32, zArr V c (((cfg4.win 0).blk t).view.emb (ix2 p k))
        * ztArr V c (((cfg4.win 1).blk t).view.emb (ix2 k q)))
      = Ideal.logistic (∑ k : Fin 32, zArr V c (ix2 ((((cfg4.win 2).blk t).view.emb (ix2 p q)) 0) k)
        * ztArr V c (ix2 k ((((cfg4.win 2).blk t).view.emb (ix2 p q)) 1)))
  refine congrArg Ideal.logistic (Finset.sum_congr rfl fun k _ => ?_)
  have hA : ((cfg4.win 0).blk t).view.emb (ix2 p k) = ix2 ((((cfg4.win 2).blk t).view.emb (ix2 p q)) 0) k := by
    funext a; apply Fin.ext
    match a with
    | ⟨0, _⟩ => show win4_0.index t (0 : Fin 2) * 400 + 1 * p.val = win4_2.index t (0 : Fin 2) * 400 + 1 * p.val; omega
    | ⟨1, _⟩ => show win4_0.index t (1 : Fin 2) * 32 + 1 * k.val = k.val; omega
  have hB : ((cfg4.win 1).blk t).view.emb (ix2 k q) = ix2 k ((((cfg4.win 2).blk t).view.emb (ix2 p q)) 1) := by
    funext a; apply Fin.ext
    match a with
    | ⟨0, _⟩ => show win4_1.index t (0 : Fin 2) * 32 + 1 * k.val = k.val; omega
    | ⟨1, _⟩ => show win4_1.index t (1 : Fin 2) * 10000 + 1 * q.val = win4_2.index t (1 : Fin 2) * 10000 + 1 * q.val; omega
  exact congrArg₂ (· * ·) (congrArg (zArr V c) hA) (congrArg (ztArr V c) hB)

/-- An index of the output array lies in point `t`'s block iff each coordinate lies in the block's range. -/
theorem mem_blk (t : Fin cfg4.N) (i : S10000x10000.Idx) :
    i ∈ ((cfg4.win 2).blk t).view.set ↔ ∀ a : Fin 2, win4_2.index t a * S400x10000.size a ≤ (i a).val
      ∧ (i a).val < win4_2.index t a * S400x10000.size a + S400x10000.size a := by
  show i ∈ ((View.whole main_v5).slice (win4_2.rect t)).set ↔ _
  rw [View.set_slice_whole, Rect.mem_set_unit]
  exact Iff.rfl

/-- Every index of the output array is written back: row `r` by point `r / 400`. -/
theorem cover (i : S10000x10000.Idx) :
    ∃ t : Fin cfg4.N, (cfg4.win 2).flush t = true ∧ i ∈ ((cfg4.win 2).blk t).view.set := by
  have hi0 : (i 0).val < 10000 := (i 0).isLt
  have hi1 : (i 1).val < 10000 := (i 1).isLt
  have ht : (i 0).val / 400 < cfg4.N := by
    show (i 0).val / 400 < grid4.N
    rw [N_4]; omega
  have e20 : win4_2.index ⟨(i 0).val / 400, ht⟩ (0 : Fin 2) = (i 0).val / 400 := (blockIdx ⟨(i 0).val / 400, ht⟩).2.2.2.2.1
  have e21 : win4_2.index ⟨(i 0).val / 400, ht⟩ (1 : Fin 2) = 0 := (blockIdx ⟨(i 0).val / 400, ht⟩).2.2.2.2.2
  refine ⟨⟨(i 0).val / 400, ht⟩, flush4_2 _, ?_⟩
  rw [mem_blk]
  intro a
  match a with
  | ⟨0, _⟩ =>
    show win4_2.index ⟨(i 0).val / 400, ht⟩ (0 : Fin 2) * 400 ≤ (i 0).val
      ∧ (i 0).val < win4_2.index ⟨(i 0).val / 400, ht⟩ (0 : Fin 2) * 400 + 400
    rw [e20]; omega
  | ⟨1, _⟩ =>
    show win4_2.index ⟨(i 0).val / 400, ht⟩ (1 : Fin 2) * 10000 ≤ (i 1).val
      ∧ (i 1).val < win4_2.index ⟨(i 0).val / 400, ht⟩ (1 : Fin 2) * 10000 + 10000
    rw [e21]; omega

/-- THE OUTPUT ARRAY after the region: the logistic function of the product of the two arrays the region finds. -/
theorem final (c : Dev nD) : (dat4 V c).arrAt 2 cfg4.N = logisticAll (mm (zArr V c) (ztArr V c)) :=
  (dat4 V c).arrAt_eq_of_cover 2 (logisticAll (mm (zArr V c) (ztArr V c))) (fun t _ => flushed V c t) cover

end Cert.KernelIdeal.Gram

end
-- ==== Proof.Fold.lean ====
/-
  The contents of the two result arrays when @main returns, as functions of the five launch arrays.

  The generated frame names the buffer contents at every boundary between @main's segments (`W0 … W6`). Region by
  region, an output array holds its region's whole-array function of the arrays the region found, an input array and
  every buffer the region does not touch hold what they held before, and the one host operation between the fourth and
  the fifth region transposes the embedding. Reading the fold from the launch memory forwards gives
  `S₁ = layer1 X W₁`, the adjacency copy `= A`, `S₂ = layer2 A S₁ W₂`, `Z₃ = layer3 A S₂ W₃`, `Z = A · Z₃`,
  `Zᵀ`, and the reconstruction `logistic (Z · Zᵀ)`.
-/
import proofs.«141929_g4002909520352_cont_8to1_b_696_5_alg».proof.Proof.Gen.KernelIdeal.Frame
import proofs.«141929_g4002909520352_cont_8to1_b_696_5_alg».proof.Proof.FeatureLayer
import proofs.«141929_g4002909520352_cont_8to1_b_696_5_alg».proof.Proof.Pass1
import proofs.«141929_g4002909520352_cont_8to1_b_696_5_alg».proof.Proof.Pass2
import proofs.«141929_g4002909520352_cont_8to1_b_696_5_alg».proof.Proof.Pass3
import proofs.«141929_g4002909520352_cont_8to1_b_696_5_alg».proof.Proof.Gram
import Idealize.ShloMosaic.Lib.StableHlo.Run

set_option maxRecDepth 16384

noncomputable section

namespace Cert.KernelIdeal.Fold

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gae

variable (m : (ℓ : Loc nD τ sig) → Buf (Elt Ideal) ℓ) (ρ : Dev nD → PrngReg)

/-- The five launch arrays, at their literal types. -/
abbrev argX (c : Dev nD) : (⟨2, ![10000, 128]⟩ : Shape).Idx → EReal := m ((c : Thread nD τ).loc main_arg0)
abbrev argA (c : Dev nD) : (⟨2, ![10000, 10000]⟩ : Shape).Idx → EReal := m ((c : Thread nD τ).loc main_arg1)
abbrev argW1 (c : Dev nD) : (⟨2, ![128, 128]⟩ : Shape).Idx → EReal := m ((c : Thread nD τ).loc main_arg2)
abbrev argW2 (c : Dev nD) : (⟨2, ![128, 64]⟩ : Shape).Idx → EReal := m ((c : Thread nD τ).loc main_arg3)
abbrev argW3 (c : Dev nD) : (⟨2, ![64, 32]⟩ : Shape).Idx → EReal := m ((c : Thread nD τ).loc main_arg4)

/-! ## After the first region -/

/-- The first layer's activations. -/
theorem v0_at1 (c : Dev nD) : W1 m ρ c (Proc.devRef .tc main_v0) = layer1 (argX m c) (argW1 m c) :=
  (W1_arr m ρ c 2).trans (FeatureLayer.final (V0 m ρ) c)

theorem arg1_at1 (c : Dev nD) : W1 m ρ c (Proc.devRef .tc main_arg1) = argA m c :=
  W1_of_ne m ρ c main_arg1 (by decide)
theorem arg3_at1 (c : Dev nD) : W1 m ρ c (Proc.devRef .tc main_arg3) = argW2 m c :=
  W1_of_ne m ρ c main_arg3 (by decide)
theorem arg4_at1 (c : Dev nD) : W1 m ρ c (Proc.devRef .tc main_arg4) = argW3 m c :=
  W1_of_ne m ρ c main_arg4 (by decide)

/-! ## After the second region -/

/-- The re-emitted adjacency is the adjacency matrix. -/
theorem v1_0_at2 (c : Dev nD) : W2 m ρ c (Proc.devRef .tc main_v1_0) = argA m c :=
  (W2_arr m ρ c 3).trans ((Pass1.finalCopy (V1 m ρ) c).trans (arg1_at1 m ρ c))

/-- The second layer's activations. -/
theorem v1_1_at2 (c : Dev nD) :
    W2 m ρ c (Proc.devRef .tc main_v1_1) = layer2 (argA m c) (layer1 (argX m c) (argW1 m c)) (argW2 m c) := by
  refine (W2_arr m ρ c 4).trans ((Pass1.final (V1 m ρ) c).trans ?_)
  have h1 : Pass1.adjArr (V1 m ρ) c = argA m c := arg1_at1 m ρ c
  have h2 : Pass1.sArr (V1 m ρ) c = layer1 (argX m c) (argW1 m c) := v0_at1 m ρ c
  have h3 : Pass1.wArr (V1 m ρ) c = argW2 m c := arg3_at1 m ρ c
  rw [h1, h2, h3]

theorem arg4_at2 (c : Dev nD) : W2 m ρ c (Proc.devRef .tc main_arg4) = argW3 m c :=
  (W2_of_ne m ρ c main_arg4 (by decide)).trans (arg4_at1 m ρ c)

/-! ## After the third region -/

theorem v1_0_at3 (c : Dev nD) : W3 m ρ c (Proc.devRef .tc main_v1_0) = argA m c :=
  (W3_arr m ρ c 0).trans ((((dat2 (V2 m ρ) c).arrAt_in 0 rfl _).trans (A_eq2 (V2 m ρ) c 0)).trans (v1_0_at2 m ρ c))

theorem v2_at3 (c : Dev nD) :
    W3 m ρ c (Proc.devRef .tc main_v2)
      = layer3 (argA m c) (layer2 (argA m c) (layer1 (argX m c) (argW1 m c)) (argW2 m c)) (argW3 m c) := by
  refine (W3_arr m ρ c 3).trans ((Pass2.final (V2 m ρ) c).trans ?_)
  have h1 : Pass2.adjArr (V2 m ρ) c = argA m c := v1_0_at2 m ρ c
  have h2 : Pass2.sArr (V2 m ρ) c = layer2 (argA m c) (layer1 (argX m c) (argW1 m c)) (argW2 m c) := v1_1_at2 m ρ c
  have h3 : Pass2.wArr (V2 m ρ) c = argW3 m c := arg4_at2 m ρ c
  rw [h1, h2, h3]

/-! ## After the fourth region: the embedding -/

theorem v3_at4 (c : Dev nD) :
    W4 m ρ c (Proc.devRef .tc main_v3) = embedding (argX m c) (argA m c) (argW1 m c) (argW2 m c) (argW3 m c) := by
  refine (W4_arr m ρ c 2).trans ((Pass3.final (V3 m ρ) c).trans ?_)
  have h1 : Pass3.adjArr (V3 m ρ) c = argA m c := v1_0_at3 m ρ c
  have h2 : Pass3.rhsArr (V3 m ρ) c
      = layer3 (argA m c) (layer2 (argA m c) (layer1 (argX m c) (argW1 m c)) (argW2 m c)) (argW3 m c) := v2_at3 m ρ c
  rw [h1, h2]
  rfl

/-! ## After the transpose on the host -/

theorem v3_at5 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem v4_at5 (c : Dev nD) :
    W5 m ρ c (Proc.devRef .tc main_v4)
      = transpose S32x10000 [1, 0] (W4 m ρ c (Proc.devRef .tc main_v3)) transposes_S10000x32_S32x10000_1_0 := by
  show StableHlo.after hostOps4 (W4 m ρ c) (Proc.devRef .tc main_v4) = _
  after_results

/-! ## After the fifth region: the two results -/

/-- THE FIRST RESULT: the embedding. -/
theorem result_embedding (c : Dev nD) :
    W6 m ρ c (Proc.devRef .tc main_v3) = embedding (argX m c) (argA m c) (argW1 m c) (argW2 m c) (argW3 m c) :=
  (W6_arr m ρ c 0).trans ((((dat4 (V5 m ρ) c).arrAt_in 0 rfl _).trans (A_eq4 (V5 m ρ) c 0)).trans
    ((v3_at5 m ρ c).trans (v3_at4 m ρ c)))

/-- THE SECOND RESULT: the reconstruction from the embedding. -/
theorem result_reconstruction (c : Dev nD) :
    W6 m ρ c (Proc.devRef .tc main_v5)
      = reconstruction (embedding (argX m c) (argA m c) (argW1 m c) (argW2 m c) (argW3 m c)) := by
  refine (W6_arr m ρ c 2).trans ((Gram.final (V5 m ρ) c).trans ?_)
  have h1 : Gram.zArr (V5 m ρ) c = embedding (argX m c) (argA m c) (argW1 m c) (argW2 m c) (argW3 m c) :=
    (v3_at5 m ρ c).trans (v3_at4 m ρ c)
  have h2 : Gram.ztArr (V5 m ρ) c = tr (embedding (argX m c) (argA m c) (argW1 m c) (argW2 m c) (argW3 m c)) := by
    refine (v4_at5 m ρ c).trans ?_
    rw [show (W4 m ρ c (Proc.devRef .tc main_v3) : (⟨2, ![10000, 32]⟩ : Shape).Idx → EReal)
        = embedding (argX m c) (argA m c) (argW1 m c) (argW2 m c) (argW3 m c) from v3_at4 m ρ c]
    exact transpose_eq_tr _ _
  rw [h1, h2]
  rfl

end Cert.KernelIdeal.Fold

end
-- ==== Proof.RefValue.lean ====
/-
  The reference's two results are `embedding` and `reconstruction` of its arguments.

  Its @main is eighteen host operations; the generated run gives each result as their composed term. Every
  `dot_general` there has the dimension numbers of a plain matrix product, so it is `mm`; `stablehlo.tanh` is the
  hyperbolic tangent entry by entry; the transpose is `tr`; and negate, exponential, add one, divide one by it is
  the logistic function on every extended real.
-/
import proofs.«141929_g4002909520352_cont_8to1_b_696_5_alg».proof.Proof.Gen.ReferenceIdeal.Run
import proofs.«141929_g4002909520352_cont_8to1_b_696_5_alg».proof.Proof.Encoder

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Gae

/-- The reference's first result, as the run composes it, is the embedding. -/
theorem embedding_eq (X : FVec Ideal S10000x128 .f32) (A : FVec Ideal S10000x10000 .f32)
    (W1 : FVec Ideal S128x128 .f32) (W2 : FVec Ideal S128x64 .f32) (W3 : FVec Ideal S64x32 .f32) :
    Host.dotGeneral dot_S10000x10000_S10000x32_S10000x32_1_0_0_1_n_n none A
      (Host.dotGeneral dot_S10000x64_S64x32_S10000x32_1_0_0_1_n_n none
        (Host.dotGeneral dot_S10000x10000_S10000x64_S10000x64_1_0_0_1_n_n none A
          (Host.tanh (Host.dotGeneral dot_S10000x128_S128x64_S10000x64_1_0_0_1_n_n none
            (Host.dotGeneral dot_S10000x10000_S10000x128_S10000x128_1_0_0_1_n_n none A
              (Host.tanh (Host.dotGeneral dot_S10000x128_S128x128_S10000x128_1_0_0_1_n_n none X W1))) W2))) W3)
      = embedding X A W1 W2 W3 := by
  have e1 (a : FVec Ideal S10000x128 .f32) (b : FVec Ideal S128x128 .f32) :
      Host.dotGeneral dot_S10000x128_S128x128_S10000x128_1_0_0_1_n_n none a b = mm a b :=
    dotGeneral_eq_mm (φ₁ := .f32) (φ₂ := .f32) none a b
  have e2 (a : FVec Ideal S10000x10000 .f32) (b : FVec Ideal S10000x128 .f32) :
      Host.dotGeneral dot_S10000x10000_S10000x128_S10000x128_1_0_0_1_n_n none a b = mm a b :=
    dotGeneral_eq_mm (φ₁ := .f32) (φ₂ := .f32) none a b
  have e3 (a : FVec Ideal S10000x128 .f32) (b : FVec Ideal S128x64 .f32) :
      Host.dotGeneral dot_S10000x128_S128x64_S10000x64_1_0_0_1_n_n none a b = mm a b :=
    dotGeneral_eq_mm (φ₁ := .f32) (φ₂ := .f32) none a b
  have e4 (a : FVec Ideal S10000x10000 .f32) (b : FVec Ideal S10000x64 .f32) :
      Host.dotGeneral dot_S10000x10000_S10000x64_S10000x64_1_0_0_1_n_n none a b = mm a b :=
    dotGeneral_eq_mm (φ₁ := .f32) (φ₂ := .f32) none a b
  have e5 (a : FVec Ideal S10000x64 .f32) (b : FVec Ideal S64x32 .f32) :
      Host.dotGeneral dot_S10000x64_S64x32_S10000x32_1_0_0_1_n_n none a b = mm a b :=
    dotGeneral_eq_mm (φ₁ := .f32) (φ₂ := .f32) none a b
  have e6 (a : FVec Ideal S10000x10000 .f32) (b : FVec Ideal S10000x32 .f32) :
      Host.dotGeneral dot_S10000x10000_S10000x32_S10000x32_1_0_0_1_n_n none a b = mm a b :=
    dotGeneral_eq_mm (φ₁ := .f32) (φ₂ := .f32) none a b
  rw [e1, hostTanh_eq_tanhAll, e2, e3, hostTanh_eq_tanhAll, e4, e5, e6]
  rfl

/-- The reference's second result, as the run composes it from the first, is the reconstruction. -/
theorem reconstruction_eq (Z : FVec Ideal S10000x32 .f32) :
    Host.divf (broadcastInDim S10000x10000 ![] bcast_S_S10000x10000 (constant S_ .f32 0x3F800000#32))
      (addf (broadcastInDim S10000x10000 ![] bcast_S_S10000x10000 (constant S_ .f32 0x3F800000#32))
        (Host.exp (Host.negf (Host.dotGeneral dot_S10000x32_S32x10000_S10000x10000_1_0_0_1_n_n none Z
          (transpose S32x10000 [1, 0] Z transposes_S10000x32_S32x10000_1_0)))))
      = reconstruction Z :=
  (hostSigmoid_eq_logisticAll bcast_S_S10000x10000 _).trans
    (congrArg logisticAll ((dotGeneral_eq_mm (φ₁ := .f32) (φ₂ := .f32) none Z _).trans
      (congrArg (mm Z) (transpose_eq_tr Z transposes_S10000x32_S32x10000_1_0))))

end Cert.ReferenceIdeal.RefValue

end
-- ==== Proof.lean ====
/-
  A graph auto-encoder's forward pass as five row-blocked kernels, against its plain matrix form.

  With `A` the adjacency matrix, `X` the node features and `W₁, W₂, W₃` the weights, the reference computes
  `Z = A · ((A · tanh ((A · tanh (X · W₁)) · W₂)) · W₃)` and `logistic (Z · Zᵀ)` by whole-matrix products. The kernel
  computes the same five stages in five launches, each over blocks of rows: `tanh (X · W₁)` in blocks of 2000 rows;
  then, in blocks of 400 rows, the adjacency re-emitted in a narrower float format together with
  `tanh ((A · S₁) · W₂)`; `(A · S₂) · W₃`; `A · Z₃`; and, after a transpose on the host, `logistic (Z · Zᵀ)`.

  On the extended reals a change of float format is the identity, the matrix unit's product into a zero accumulator
  and the host's `dot_general` are both the sum over `k` of `lhs[r, k] · rhs[k, s]`, and entry `(r, s)` of a product
  reads row `r` of the left operand only, so a block of rows of the left operand gives the same block of rows of the
  product. Each launch therefore leaves in its output array the reference's corresponding whole-matrix stage of the
  arrays it found (one module per launch), the stages compose along the run's boundary contents (Fold), and the
  reference's composed host term is the same function of the arguments (RefValue). No law used needs finite inputs:
  sums are only regrouped by index, never distributed over.

  The three frames are the generated ones (the reference's is its generated run with the results dropped), and the
  idealization's ledger is empty.
-/
import proofs.«141929_g4002909520352_cont_8to1_b_696_5_alg».proof.Defs
import proofs.«141929_g4002909520352_cont_8to1_b_696_5_alg».proof.Proof.Gen.Kernel
import proofs.«141929_g4002909520352_cont_8to1_b_696_5_alg».proof.Proof.Gen.Kernel.Skeleton
import proofs.«141929_g4002909520352_cont_8to1_b_696_5_alg».proof.Proof.Gen.Kernel.Launch
import proofs.«141929_g4002909520352_cont_8to1_b_696_5_alg».proof.Proof.Gen.Kernel.Points
import proofs.«141929_g4002909520352_cont_8to1_b_696_5_alg».proof.Proof.Gen.Kernel.Frame
import proofs.«141929_g4002909520352_cont_8to1_b_696_5_alg».proof.Proof.Gen.KernelIdeal
import proofs.«141929_g4002909520352_cont_8to1_b_696_5_alg».proof.Proof.Gen.KernelIdeal.Skeleton
import proofs.«141929_g4002909520352_cont_8to1_b_696_5_alg».proof.Proof.Gen.KernelIdeal.Launch
import proofs.«141929_g4002909520352_cont_8to1_b_696_5_alg».proof.Proof.Gen.KernelIdeal.Points
import proofs.«141929_g4002909520352_cont_8to1_b_696_5_alg».proof.Proof.Gen.KernelIdeal.Frame
import proofs.«141929_g4002909520352_cont_8to1_b_696_5_alg».proof.Proof.Gen.ReferenceIdeal
import proofs.«141929_g4002909520352_cont_8to1_b_696_5_alg».proof.Proof.Gen.ReferenceIdeal.Run
import proofs.«141929_g4002909520352_cont_8to1_b_696_5_alg».proof.Proof.Gen.Pre_finite_inputs
import proofs.«141929_g4002909520352_cont_8to1_b_696_5_alg».proof.Proof.ValueRun
import proofs.«141929_g4002909520352_cont_8to1_b_696_5_alg».proof.Proof.Fold
import proofs.«141929_g4002909520352_cont_8to1_b_696_5_alg».proof.Proof.RefValue
import Idealize.ShloMosaic.Adequacy
import Idealize.ShloMosaic.Init

noncomputable section

namespace Cert.Proof

open Idealize.ShloMosaic Idealize.SL.Sem Cert.Kernel Cert.Gae

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization recorded no rewrite. -/
theorem preserves : Cert.preserves_Kernel_KernelIdeal := trivial

/-- Both programs end with the embedding and the reconstruction of the (agreeing) arguments. -/
theorem algebraic : Cert.algebraic_KernelIdeal_ReferenceIdeal := by
  intro m ρ m' ρ' _ hagree
  refine ⟨fun c => embedding (Cert.KernelIdeal.Fold.argX m c) (Cert.KernelIdeal.Fold.argA m c)
      (Cert.KernelIdeal.Fold.argW1 m c) (Cert.KernelIdeal.Fold.argW2 m c) (Cert.KernelIdeal.Fold.argW3 m c),
    fun c => reconstruction (embedding (Cert.KernelIdeal.Fold.argX m c) (Cert.KernelIdeal.Fold.argA m c)
      (Cert.KernelIdeal.Fold.argW1 m c) (Cert.KernelIdeal.Fold.argW2 m c) (Cert.KernelIdeal.Fold.argW3 m c)), ?_, ?_⟩
  · exact (θ_run Cert.KernelIdeal.defs _ _).mono
      (fun r h c => ⟨(h c).1.trans (Cert.KernelIdeal.Fold.result_embedding m ρ c),
        (h c).2.1.trans (Cert.KernelIdeal.Fold.result_reconstruction m ρ c), (h c).2.2⟩)
      (Cert.KernelIdeal.ValueRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2]
      exact Cert.ReferenceIdeal.RefValue.embedding_eq _ _ _ _ _
    · rw [(hagree c).1, (hagree c).2.1, (hagree c).2.2.1, (hagree c).2.2.2.1, (hagree c).2.2.2.2]
      exact (Cert.ReferenceIdeal.RefValue.reconstruction_eq _).trans
        (congrArg reconstruction (Cert.ReferenceIdeal.RefValue.embedding_eq _ _ _ _ _))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
